-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S128x128 : Shape := ⟨2, ![128, 128]⟩
abbrev S128 : Shape := ⟨1, ![128]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S524288x128 .f32) (main_arg1 : FVec F S128x128 .f32) (main_arg2 : FVec F S128 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S524288x128 : Shape := ⟨2, ![524288, 128]⟩
abbrev S128x128 : Shape := ⟨2, ![128, 128]⟩
abbrev S128 : Shape := ⟨1, ![128]⟩
abbrev S1x128 : Shape := ⟨2, ![1, 128]⟩
abbrev S8192x128 : Shape := ⟨2, ![8192, 128]⟩

abbrev nBuf : Space → Nat
  | .hbm => 7
  | .vmem => 6
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128, .f32⟩
  | .hbm, ⟨3, _⟩ => ⟨S1x128, .f32⟩
  | .hbm, ⟨4, _⟩ => ⟨S128x128, .bf16⟩
  | .hbm, ⟨5, _⟩ => ⟨S128x128, .bf16⟩
  | .hbm, ⟨6, _⟩ => ⟨S524288x128, .f32⟩
  | .local _ .vmem, ⟨0, _⟩ => ⟨S8192x128, .f32⟩
  | .local _ .vmem, ⟨1, _⟩ => ⟨S8192x128, .f32⟩
  | .local _ .vmem, ⟨2, _⟩ => ⟨S128x128, .bf16⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S128_S1x128 : S128.ShapeCasts S1x128
  bitsLt_bf16_f32 : FTy.bits .bf16 < FTy.bits .f32
  transposes_S128x128_S128x128_1_0 : S128x128.Transposes [1, 0] S128x128
  inb_S8192x128_S8192x128_0_0 : ∀ a, (![0, 0] : Fin 2 → Nat) a + S8192x128.size a ≤ S8192x128.size a
  h_S8192x128 : 0 < S8192x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S524288x128.size a
  hwx0_3 : ∀ i : grid0.Coords, EltTy.bits .f32 = 32 ∨ (Rect.block (s := S524288x128) S8192x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8192x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288x128 : Shape := ⟨2, ![524288, 128]⟩
abbrev S128x128 : Shape := ⟨2, ![128, 128]⟩
abbrev S128 : Shape := ⟨1, ![128]⟩
abbrev S1x128 : Shape := ⟨2, ![1, 128]⟩

abbrev nBuf : Space → Nat
  | .hbm => 7
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S128x128, .f32⟩
  | .hbm, ⟨2, _⟩ => ⟨S128, .f32⟩
  | .hbm, ⟨3, _⟩ => ⟨S524288x128, .f32⟩
  | .hbm, ⟨4, _⟩ => ⟨S1x128, .f32⟩
  | .hbm, ⟨5, _⟩ => ⟨S524288x128, .f32⟩
  | .hbm, ⟨6, _⟩ => ⟨S524288x128, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  dot_S524288x128_S128x128_S524288x128_1_1_0_0_n_n_wf : DotDims.WF S524288x128 S128x128 S524288x128 [1] [1] [0] [0] [] []

variable [Facts₀]

def dot_S524288x128_S128x128_S524288x128_1_1_0_0_n_n : DotDims S524288x128 S128x128 S524288x128 where
  lhsContracting := [1]
  rhsContracting := [1]
  lhsNonContracting := [0]
  rhsNonContracting := [0]
  lhsBatch := []
  rhsBatch := []
  wf := dot_S524288x128_S128x128_S524288x128_1_1_0_0_n_n_wf

class Facts : Prop extends Facts₀ where

variable [Facts]
-- ==== Proof.AffineSpec.lean ====
/-
  The dense layer as one function of its three argument arrays, over the extended reals.

  For a batch of 524288 rows `x[b, ·]` of length 128, a square weight matrix `w[o, i]` (output feature `o`, input
  feature `i`) and a bias `β[o]`, the layer's value at row `b` and output feature `o` is

      y[b, o] = (∑ i, x[b, i] · w[o, i]) + β[o]

  that is `y = x · wᵀ + β`. Both programs of the certificate compute this function: the kernel multiplies a block of
  8192 rows by the transposed weights `wᵀ[i, o]` and adds the bias row; the reference contracts the second axis of
  `x` with the second axis of `w` and adds the bias broadcast over the rows. Only the naming of the contraction's index
  differs, so no law of arithmetic beyond the sum's definition is needed and nothing is asked of the inputs.
-/
import Idealize.ShloMosaic.PureOps.Ideal
import Idealize.ShloMosaic.Lib.ValueIdx

noncomputable section

open scoped BigOperators

namespace Cert.Dense

open Idealize.ShloMosaic Idealize.ShloMosaic.ValueIdx

/-- The batch of rows: 524288 × 128. -/
abbrev Rows : Shape := ⟨2, ![524288, 128]⟩
/-- The weight matrix: 128 output features × 128 input features. -/
abbrev Weights : Shape := ⟨2, ![128, 128]⟩
/-- The bias: one entry per output feature. -/
abbrev Bias : Shape := ⟨1, ![128]⟩

/-- `y[b, o] = (∑ i, x[b, i] · w[o, i]) + β[o]`: the affine map `x ↦ x · wᵀ + β`, row by row. -/
def affine (x : FVec Ideal Rows .f32) (w : FVec Ideal Weights .f32) (β : FVec Ideal Bias .f32) : FVec Ideal Rows .f32 :=
  fun i => (∑ k : Fin 128, x (ix2 (i 0) k) * w (ix2 (i 1) k)) + β (ix1 (i 1))

/-- The same at an index given by its two coordinates. -/
theorem affine_apply (x : FVec Ideal Rows .f32) (w : FVec Ideal Weights .f32) (β : FVec Ideal Bias .f32)
    (b : Fin 524288) (o : Fin 128) :
    affine x w β (ix2 b o) = (∑ k : Fin 128, x (ix2 b k) * w (ix2 o k)) + β (ix1 o) := rfl

end Cert.Dense

end
-- ==== Proof.RefAffine.lean ====
/-
  The reference computes the dense layer `x · wᵀ + β`.

  Its four operations are: the contraction of `x`'s second axis with `w`'s second axis, which at the extended reals
  is the plain sum `∑ i, x[b, i] · w[o, i]`; the bias laid out as one row and then repeated along all 524288 rows,
  which at `(b, o)` reads `β[o]`; and their sum. Read at an index this is the specification's term, with the
  contraction index already named the way the specification names it.
-/
import proofs.«404502_j12541304504952_3_alg».proof.Proof.AffineSpec
import proofs.«404502_j12541304504952_3_alg».proof.Proof.Gen.ReferenceIdeal.Read

noncomputable section

open scoped BigOperators

namespace Cert.Dense.Ref

open Idealize.ShloMosaic Idealize.ShloMosaic.ValueIdx Cert.ReferenceIdeal Cert.ReferenceIdeal.Read

/-- The left operand of the contraction at output `(b, o)` and contraction index `i` is `x[b, i]`. -/
theorem left_idx (j : S524288x128.Idx) (k : Fin 128) : lidx_main_v0 j k = ix2 (j 0) k :=
  funext fun a => Fin.ext (by match a with | ⟨0, _⟩ => rfl | ⟨1, _⟩ => rfl)

/-- The right operand there is `w[o, i]`: the contraction runs along the weights' second axis. -/
theorem right_idx (j : S524288x128.Idx) (k : Fin 128) : ridx_main_v0 j k = ix2 (j 1) k :=
  funext fun a => Fin.ext (by match a with | ⟨0, _⟩ => rfl | ⟨1, _⟩ => rfl)

/-- The bias repeated along the rows reads, at `(b, o)`, the entry `β[o]`. -/
theorem bias_idx (j : S524288x128.Idx) : idx_main_v1 (idx_main_v2 j) = ix1 (j 1) :=
  funext fun a => Fin.ext (by match a with | ⟨0, _⟩ => rfl)

/-- The reference's result, as the composition of its four stages, is the dense layer of its three arguments. -/
theorem result_eq (x : FVec Ideal Rows .f32) (w : FVec Ideal Weights .f32) (β : FVec Ideal Bias .f32) :
    val_main_v3 (F := Ideal) x w β = affine x w β := by
  funext j
  rw [val_main_v3_apply, val_main_v0_apply, val_main_v2_apply, val_main_v1_apply]
  simp only [left_idx, right_idx, bias_idx]
  rfl

end Cert.Dense.Ref

end
-- ==== Proof.BlockProduct.lean ====
/-
  What the kernel body stores, read at one entry of the block.

  At a grid point the body holds a block `X` of 8192 rows of `x`, the whole transposed weight matrix `T[i, o]` and
  the bias as one row `R[0, o]`. It narrows `X` to the weights' format (the identity on extended reals), multiplies
  `X · T` into a zero accumulator, repeats the bias row along the block's rows and adds. So the stored block at
  `(p, o)` is `(∑ i, X[p, i] · T[i, o]) + R[0, o]`: a matrix product into zero is the bare sum over the one
  contracted axis, and the broadcast row reads its entry in column `o`.
-/
import proofs.«404502_j12541304504952_3_alg».proof.Proof.Gen.KernelIdeal.Skeleton
import proofs.«404502_j12541304504952_3_alg».proof.Proof.AffineSpec
import Idealize.ShloMosaic.Lib.ValueIdx
import Idealize.ShloMosaic.Lib.Pipeline.Value
import Idealize.ShloMosaic.PureOps.Ideal.Laws

noncomputable section

open scoped BigOperators

namespace Cert.Dense.Block

open Idealize.ShloMosaic Idealize.ShloMosaic.ValueIdx Cert.KernelIdeal Cert.KernelIdeal.Gen

/-- The product's dimension numbers: rows of the left operand against columns of the right, contracting the left's
    second axis with the right's first. -/
abbrev prod := dot_S8192x128_S128x128_S8192x128_1_0_0_1_n_n

theorem lhs_row (j : S8192x128.Idx) (q : dot_S8192x128_S128x128_S8192x128_1_0_0_1_n_n.contr.Idx) :
    (dot_S8192x128_S128x128_S8192x128_1_0_0_1_n_n.lhsIdx j q 0).val = (j 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_contr (j : S8192x128.Idx) (q : dot_S8192x128_S128x128_S8192x128_1_0_0_1_n_n.contr.Idx) :
    (dot_S8192x128_S128x128_S8192x128_1_0_0_1_n_n.lhsIdx j q 1).val = (q ⟨0, by decide⟩).val :=
  dot_S8192x128_S128x128_S8192x128_1_0_0_1_n_n.lhsIdx_val_of_single rfl j q
theorem rhs_contr (j : S8192x128.Idx) (q : dot_S8192x128_S128x128_S8192x128_1_0_0_1_n_n.contr.Idx) :
    (dot_S8192x128_S128x128_S8192x128_1_0_0_1_n_n.rhsIdx j q 0).val = (q ⟨0, by decide⟩).val :=
  dot_S8192x128_S128x128_S8192x128_1_0_0_1_n_n.rhsIdx_val_of_single rfl j q
theorem rhs_col (j : S8192x128.Idx) (q : dot_S8192x128_S128x128_S8192x128_1_0_0_1_n_n.contr.Idx) :
    (dot_S8192x128_S128x128_S8192x128_1_0_0_1_n_n.rhsIdx j q 1).val = (j 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- A block of rows times the transposed weights, into a zero accumulator, read at `(p, o)`: `∑ i, X[p, i] · T[i, o]`. -/
theorem product_apply (X : FVec Ideal S8192x128 .bf16) (Tm : FVec Ideal S128x128 .bf16) (p : Fin 8192) (o : Fin 128) :
    matmul dot_S8192x128_S128x128_S8192x128_1_0_0_1_n_n none X Tm (constant (F := Ideal) S8192x128 .f32 0x00000000#32) (ix2 p o)
      = ∑ k : Fin 128, X (ix2 p k) * Tm (ix2 k o) := by
  simp only [matmul]
  rw [Ideal.matmul_constant_zero_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 p o) ((ValueIdx.contrEquiv1 dot_S8192x128_S128x128_S8192x128_1_0_0_1_n_n 128 rfl rfl).symm k) = ix2 p k := funext fun a => Fin.ext (by
    match a with
    | ⟨0, _⟩ => exact lhs_row _ _
    | ⟨1, _⟩ => exact (lhs_contr _ _).trans hk)
  have er : dot_S8192x128_S128x128_S8192x128_1_0_0_1_n_n.rhsIdx (ix2 p o) ((ValueIdx.contrEquiv1 dot_S8192x128_S128x128_S8192x128_1_0_0_1_n_n 128 rfl rfl).symm k) = ix2 k o := funext fun a => Fin.ext (by
    match a with
    | ⟨0, _⟩ => exact (rhs_contr _ _).trans hk
    | ⟨1, _⟩ => exact rhs_col _ _)
  rw [el, er]

/-- The bias row repeated along the block's 8192 rows reads, at `(p, o)`, the row's entry in column `o`. -/
theorem bias_rows_apply (R : FVec Ideal S1x128 .f32) (p : Fin 8192) (o : Fin 128) :
    broadcastTo S8192x128 R broadcasts_S1x128_S8192x128 (ix2 p o) = R (ix2 (0 : Fin 1) o) :=
  broadcastTo_apply R broadcasts_S1x128_S8192x128 (ix2 p o) (ix2 (0 : Fin 1) o) (fun a => match a with
    | ⟨0, _⟩ => by show 0 = if (1 : Nat) = 1 then 0 else p.val; rw [if_pos rfl]
    | ⟨1, _⟩ => by show o.val = if (128 : Nat) = 1 then 0 else o.val; rw [if_neg (by decide)])

/-- THE STORED BLOCK at `(p, o)`: `(∑ i, X[p, i] · T[i, o]) + R[0, o]`. -/
theorem stored_apply (X : Vec Ideal S8192x128 .f32) (Tm : Vec Ideal S128x128 .bf16) (R : Vec Ideal S1x128 .f32)
    (p : Fin 8192) (o : Fin 128) :
    k0_pay1 (F := Ideal) X Tm R (ix2 p o) = (∑ k : Fin 128, X (ix2 p k) * Tm (ix2 k o)) + R (ix2 (0 : Fin 1) o) := by
  unfold k0_pay1
  rw [addf_apply, shapeCast_self, shapeCast_self, product_apply, bias_rows_apply]
  rfl

/-- THE STORED BLOCK IS THE DENSE LAYER there: if row `p` of the block is row `i 0` of `x`, column `o` of the transposed
    weights is row `i 1` of `w`, and the bias row's entry in column `o` is `β`'s entry `i 1`, then the stored entry
    `(p, o)` is `affine x w β` at the array index `i`: the two sums agree term by term. -/
theorem stored_eq_affine (X : Vec Ideal S8192x128 .f32) (Tm : Vec Ideal S128x128 .bf16) (R : Vec Ideal S1x128 .f32)
    (x : FVec Ideal Rows .f32) (w : FVec Ideal Weights .f32) (β : FVec Ideal Bias .f32)
    (p : Fin 8192) (o : Fin 128) (i : Rows.Idx)
    (hX : ∀ k : Fin 128, X (ix2 p k) = x (ix2 (i 0) k))
    (hT : ∀ k : Fin 128, Tm (ix2 k o) = w (ix2 (i 1) k))
    (hR : R (ix2 (0 : Fin 1) o) = β (ix1 (i 1))) :
    k0_pay1 (F := Ideal) X Tm R (ix2 p o) = affine x w β i := by
  rw [stored_apply, hR]
  unfold affine
  exact congrArg (· + β (ix1 (i 1))) (Finset.sum_congr rfl fun k _ => by rw [hX k, hT k])

end Cert.Dense.Block

end
-- ==== Proof.Launched.lean ====
/-
  What the region finds in the two arrays the host prepares before it.

  Before the kernel is launched the host narrows the weights to the kernel's format — the identity on extended
  reals — and transposes them, and lays the bias out as one row. So the array the kernel's second window reads holds
  `T[i, o] = w[o, i]`, and the array its third window reads holds `R[0, o] = β[o]`.
-/
import proofs.«404502_j12541304504952_3_alg».proof.Proof.Gen.KernelIdeal.Frame
import Idealize.ShloMosaic.Lib.StableHlo.Run
import Idealize.ShloMosaic.Lib.ValueIdx
import Idealize.ShloMosaic.Lib.ValueLayout

noncomputable section

namespace Cert.Dense.Launched

open Idealize.ShloMosaic Idealize.ShloMosaic.TcCoe Idealize.ShloMosaic.ValueIdx Idealize.ShloMosaic.StableHlo Idealize.SL.Sem
open Cert.KernelIdeal Cert.KernelIdeal.Gen

variable (m : (ℓ : Loc nD τ sig) → Buf (Elt Ideal) ℓ)

/-- The weights as launched, the bias as launched. -/
abbrev wArg (c : Dev nD) : FVec Ideal S128x128 .f32 := m ((c : Thread nD τ).loc main_arg1)
abbrev bArg (c : Dev nD) : FVec Ideal S128 .f32 := m ((c : Thread nD τ).loc main_arg2)

/-- The second window's array at region entry: the weights, narrowed and transposed. -/
theorem weights_term (c : Dev nD) :
    (V m c main_v2 : S128x128.Idx → EReal)
      = transpose S128x128 [1, 0] (truncf .bf16 (wArg m c) bitsLt_bf16_f32) transposes_S128x128_S128x128_1_0 := by
  dsimp only [V, hostOps0]; after_results

/-- The third window's array at region entry: the bias as one row. -/
theorem bias_term (c : Dev nD) :
    (V m c main_v0 : S1x128.Idx → EReal) = shapeCast S1x128 (bArg m c) shapeCasts_S128_S1x128 := by
  dsimp only [V, hostOps0]; after_results; rfl

/-- `T[i, o] = w[o, i]`. -/
theorem weights_apply (c : Dev nD) (i o : Fin 128) :
    (V m c main_v2 : S128x128.Idx → EReal) (ix2 i o) = wArg m c (ix2 o i) := by
  rw [weights_term, transpose_ix2_apply]
  rfl

/-- `R[0, o] = β[o]`. -/
theorem bias_apply (c : Dev nD) (u : Fin 1) (o : Fin 128) :
    (V m c main_v0 : S1x128.Idx → EReal) (ix2 u o) = bArg m c (ix1 o) := by
  rw [bias_term, shapeCast_a_1a_apply]

end Cert.Dense.Launched

end
-- ==== Proof.KernelValue.lean ====
/-
  The kernel's result array is the dense layer of its arguments.

  The grid has 64 points. Point `t` reads rows `8192·t … 8192·t + 8191` of `x`, the whole of the transposed weights and
  the whole bias row, and writes back rows `8192·t … 8192·t + 8191` of the result. By the block's arithmetic its entry
  `(p, o)` is `(∑ i, x[8192·t + p, i] · w[o, i]) + β[o]`, which is the dense layer at row `8192·t + p`: every point
  writes its own rows of ONE function of the arguments. Row `r` lies in the block of point `r / 8192`, so the 64 blocks
  cover the array and the array ends holding that function everywhere.
-/
import proofs.«404502_j12541304504952_3_alg».proof.Proof.Gen.KernelIdeal.Value
import proofs.«404502_j12541304504952_3_alg».proof.Proof.AffineSpec
import proofs.«404502_j12541304504952_3_alg».proof.Proof.BlockProduct
import proofs.«404502_j12541304504952_3_alg».proof.Proof.Launched
import Idealize.ShloMosaic.Lib.Pipeline.Value

noncomputable section

namespace Cert.Dense.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The batch as launched. -/
abbrev xArg (c : Dev nD) : FVec Ideal S524288x128 .f32 := m ((c : Thread nD τ).loc main_arg0)

/-- The dense layer of the three arguments as launched. -/
abbrev result (c : Dev nD) : Buf (Elt Ideal) ((c : Thread nD τ).loc main_v3) :=
  affine (xArg m c) (Launched.wArg m c) (Launched.bArg m c)

/-- Where the windows' blocks sit at point `t`: the rows' window and the result's window at block row `t`, block
    column 0; the weights' and the bias' windows always at their one block. Decided over the 64 points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is its block of the dense layer. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero zero_offsets]
  simp only [View.ld_unit_zero (S := S8192x128) zero_offsets, View.ld_unit_zero (S := S128x128) zero_offsets,
    View.ld_unit_zero (S := S1x128) zero_offsets]
  obtain ⟨a00, a01, a10, a11, a20, a21, a30, a31⟩ := block_indices t
  funext j
  obtain ⟨p, o, rfl⟩ : ∃ (p : Fin 8192) (o : Fin 128), j = ix2 p o := ⟨j 0, j 1, eq_ix2 j⟩
  show k0_pay1 (F := Ideal) (iblk m c 0 t) (iblk m c 1 t) (iblk m c 2 t) (ix2 p o)
    = affine (xArg m c) (Launched.wArg m c) (Launched.bArg m c) (((cfg0.win 3).blk t).view.emb (ix2 p o))
  have hp : p.val < 8192 := p.isLt
  have ho : o.val < 128 := o.isLt
  -- the array index under entry (p, o) of point t's block: row 8192·t + p, column o
  have row : ((((cfg0.win 3).blk t).view.emb (ix2 p o)) 0).val = t.val * 8192 + p.val := by
    show win0_3.index t (0 : Fin 2) * 8192 + 1 * p.val = _
    rw [a30]; omega
  have col : ((((cfg0.win 3).blk t).view.emb (ix2 p o)) 1).val = o.val := by
    show win0_3.index t (1 : Fin 2) * 128 + 1 * o.val = _
    rw [a31]; omega
  refine Block.stored_eq_affine (iblk m c 0 t) (iblk m c 1 t) (iblk m c 2 t) (xArg m c) (Launched.wArg m c) (Launched.bArg m c)
    p o (((cfg0.win 3).blk t).view.emb (ix2 p o)) (fun k => ?_) (fun k => ?_) ?_
  · -- row p of the rows' block is row 8192·t + p of x
    show V m c main_arg0 (((cfg0.win 0).blk t).view.emb (ix2 p k)) = _
    rw [V_main_arg0]
    refine congrArg (xArg m c) (funext fun a => Fin.ext ?_)
    match a with
    | ⟨0, _⟩ => show win0_0.index t (0 : Fin 2) * 8192 + 1 * p.val = ((((cfg0.win 3).blk t).view.emb (ix2 p o)) 0).val
                rw [row, a00]; omega
    | ⟨1, _⟩ => show win0_0.index t (1 : Fin 2) * 128 + 1 * k.val = k.val
                rw [a01]; omega
  · -- the weights' block is the whole transposed matrix
    show (V m c main_v2 : S128x128.Idx → EReal) (((cfg0.win 1).blk t).view.emb (ix2 k o)) = _
    have e : ((cfg0.win 1).blk t).view.emb (ix2 k o) = ix2 k o := funext fun a => Fin.ext (by
      match a with
      | ⟨0, _⟩ => show win0_1.index t (0 : Fin 2) * 128 + 1 * k.val = k.val; rw [a10]; omega
      | ⟨1, _⟩ => show win0_1.index t (1 : Fin 2) * 128 + 1 * o.val = o.val; rw [a11]; omega)
    rw [e, Launched.weights_apply]
    refine congrArg (Launched.wArg m c) (funext fun a => Fin.ext ?_)
    match a with
    | ⟨0, _⟩ => exact col.symm
    | ⟨1, _⟩ => rfl
  · -- the bias' block is the whole row
    show (V m c main_v0 : S1x128.Idx → EReal) (((cfg0.win 2).blk t).view.emb (ix2 (0 : Fin 1) o)) = _
    have e : ((cfg0.win 2).blk t).view.emb (ix2 (0 : Fin 1) o) = ix2 (0 : Fin 1) o := funext fun a => Fin.ext (by
      match a with
      | ⟨0, _⟩ => show win0_2.index t (0 : Fin 2) * 1 + 1 * 0 = 0; rw [a20]
      | ⟨1, _⟩ => show win0_2.index t (1 : Fin 2) * 128 + 1 * o.val = o.val; rw [a21]; omega)
    rw [e, Launched.bias_apply]
    refine congrArg (Launched.bArg m c) (funext fun a => Fin.ext ?_)
    match a with
    | ⟨0, _⟩ => exact col.symm

/-- An index of the result array is in point `t`'s block iff each coordinate is in the block's range on its axis. -/
theorem mem_block (t : Fin cfg0.N) (i : S524288x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v3).slice (win0_3.rect t)).set ↔ _
  rw [View.set_slice_whole, Rect.mem_set_unit]
  exact Iff.rfl

/-- Row `r` is in the block of point `r / 8192`: the 64 blocks cover the array. -/
theorem covered (i : S524288x128.Idx) :
    ∃ t : Fin cfg0.N, (cfg0.win 3).flush t = true ∧ i ∈ ((cfg0.win 3).blk t).view.set := by
  have hi0 : (i 0).val < 524288 := (i 0).isLt
  have hi1 : (i 1).val < 128 := (i 1).isLt
  have hN : cfg0.N = 64 := N_0
  let t : Fin cfg0.N := ⟨(i 0).val / 8192, by rw [hN]; omega⟩
  obtain ⟨-, -, -, -, -, -, a30, a31⟩ := block_indices t
  have ht : t.val = (i 0).val / 8192 := rfl
  refine ⟨t, flush0_3 t, ?_⟩
  rw [mem_block]
  intro a
  match a with
  | ⟨0, _⟩ => show win0_3.index t (0 : Fin 2) * 8192 ≤ (i 0).val ∧ (i 0).val < win0_3.index t (0 : Fin 2) * 8192 + 8192
              rw [a30, ht]; omega
  | ⟨1, _⟩ => show win0_3.index t (1 : Fin 2) * 128 ≤ (i 1).val ∧ (i 1).val < win0_3.index t (1 : Fin 2) * 128 + 128
              rw [a31]; omega

/-- THE RESULT ARRAY after the run is the dense layer of the arguments as launched. -/
theorem final (c : Dev nD) : (dats m 0 c).arrAt 3 cfg0.N = result m c :=
  (dats m 0 c).arrAt_eq_of_cover 3 (result m c) (fun t _ => flushed_eq m c t) covered

/-- The run, read: the result at the dense layer of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩)
    (Cert.KernelIdeal.Value.run_blocks m ρ)

end Cert.Dense.Kernel

end
-- ==== Proof.lean ====
/-
  A dense layer `y = x · wᵀ + β` over a batch of 524288 rows of 128 features, computed by a kernel that walks the
  batch in 64 blocks of 8192 rows, against the same layer written as one contraction plus a broadcast bias.

  Over the extended reals both programs compute, at row `b` and output feature `o`,

      y[b, o] = (∑ i, x[b, i] · w[o, i]) + β[o]

  (`Cert.Dense.affine`). The kernel's host part narrows the weights to a shorter float format, which changes nothing
  here, and transposes them; each grid point multiplies its 8192 rows by the transposed matrix into a zero
  accumulator and adds the bias row (`Cert.Dense.Block`), which is its rows of `y` (`Cert.Dense.Kernel.flushed_eq`);
  the 64 blocks cover the batch (`Cert.Dense.Kernel.covered`). The reference contracts the second axis of `x` with
  the second axis of `w` and adds the bias repeated along the rows (`Cert.Dense.Ref.result_eq`). The two sums are the
  same sum with the contraction index named alike, so no law of arithmetic is used and the inputs' finiteness is never
  opened. The idealized kernel is the kernel's own text read over the extended reals: nothing was rewritten, so there is
  nothing to preserve beyond that.
-/
import proofs.«404502_j12541304504952_3_alg».proof.Defs
import proofs.«404502_j12541304504952_3_alg».proof.Proof.Gen.Kernel
import proofs.«404502_j12541304504952_3_alg».proof.Proof.Gen.Kernel.Skeleton
import proofs.«404502_j12541304504952_3_alg».proof.Proof.Gen.Kernel.Launch
import proofs.«404502_j12541304504952_3_alg».proof.Proof.Gen.Kernel.Points
import proofs.«404502_j12541304504952_3_alg».proof.Proof.Gen.Kernel.Frame
import proofs.«404502_j12541304504952_3_alg».proof.Proof.Gen.KernelIdeal
import proofs.«404502_j12541304504952_3_alg».proof.Proof.Gen.KernelIdeal.Skeleton
import proofs.«404502_j12541304504952_3_alg».proof.Proof.Gen.KernelIdeal.Launch
import proofs.«404502_j12541304504952_3_alg».proof.Proof.Gen.KernelIdeal.Points
import proofs.«404502_j12541304504952_3_alg».proof.Proof.Gen.KernelIdeal.Frame
import proofs.«404502_j12541304504952_3_alg».proof.Proof.Gen.ReferenceIdeal
import proofs.«404502_j12541304504952_3_alg».proof.Proof.Gen.Pre_finite_inputs
import proofs.«404502_j12541304504952_3_alg».proof.Proof.Gen.KernelIdeal.Value
import proofs.«404502_j12541304504952_3_alg».proof.Proof.Gen.ReferenceIdeal.Run
import proofs.«404502_j12541304504952_3_alg».proof.Proof.Gen.ReferenceIdeal.Read
import proofs.«404502_j12541304504952_3_alg».proof.Proof.RefAffine
import proofs.«404502_j12541304504952_3_alg».proof.Proof.KernelValue
import Idealize.ShloMosaic.Adequacy
import Idealize.ShloMosaic.Init

noncomputable section

namespace Cert.Proof

open Idealize.ShloMosaic Idealize.ShloMosaic.TcCoe Idealize.SL.Sem

/-- The kernel as printed runs to the end and leaves its three arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, with what it says of the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on `x`, `w` and `β`, the kernel's result array and the reference's both end at
    `x · wᵀ + β` of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Dense.Kernel.result m c, Cert.Dense.Kernel.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v3_eq _ _ _).trans (Cert.Dense.Ref.result_eq _ _ _)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
